-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4x4096x1024 .f32) (main_arg2 : FVec F S4x4096x1024 .f32) (main_arg3 : FVec F S1024x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S4x4096x4096 : Shape := ⟨3, ![4, 4096, 4096]⟩
abbrev S1x256x1024 : Shape := ⟨3, ![1, 256, 1024]⟩
abbrev S1x4096x1024 : Shape := ⟨3, ![1, 4096, 1024]⟩
abbrev S1x256x4096 : Shape := ⟨3, ![1, 256, 4096]⟩
abbrev S256x1024 : Shape := ⟨2, ![256, 1024]⟩
abbrev S4096x1024 : Shape := ⟨2, ![4096, 1024]⟩
abbrev S256x4096 : Shape := ⟨2, ![256, 4096]⟩
abbrev S256 : Shape := ⟨1, ![256]⟩
abbrev S256x1 : Shape := ⟨2, ![256, 1]⟩

abbrev nBuf : Space → Nat
  | .hbm => 18
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S4x4096x1024, .f32⟩
  | .hbm, ⟨14, _⟩ => ⟨S4x4096x1024, .f32⟩
  | .hbm, ⟨15, _⟩ => ⟨S4x4096x1024, .bf16⟩
  | .hbm, ⟨16, _⟩ => ⟨S4x4096x1024, .f32⟩
  | .hbm, ⟨17, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x4096x1024, .f32⟩
  | .local _ .vmem, ⟨17, _⟩ => ⟨S1x4096x1024, .bf16⟩
  | .local _ .vmem, ⟨18, _⟩ => ⟨S1x4096x1024, .bf16⟩
  | .local _ .vmem, ⟨19, _⟩ => ⟨S1x256x1024, .f32⟩
  | .local _ .vmem, ⟨20, _⟩ => ⟨S1x256x1024, .f32⟩
  | .local _ .vmem, ⟨21, _⟩ => ⟨S1x256x4096, .f32⟩
  | .local _ .vmem, ⟨22, _⟩ => ⟨S1x256x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  shapeCasts_S1024_S1x1024 : S1024.ShapeCasts S1x1024
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .bf16 = 32 ∨ (Rect.block (s := S16384x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .f32 = 32 ∨ (Rect.block (s := S4x4096x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S4x4096x1024.size a
  hwx1_1 : ∀ i : grid1.Coords, EltTy.bits .f32 = 32 ∨ (Rect.block (s := S4x4096x1024) S1x4096x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S4x4096x1024.size a
  hwx1_2 : ∀ i : grid1.Coords, EltTy.bits .bf16 = 32 ∨ (Rect.block (s := S4x4096x1024) S1x4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x4096x1024.size a
  hwx1_3 : ∀ i : grid1.Coords, EltTy.bits .f32 = 32 ∨ (Rect.block (s := S4x4096x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x4096.size a ≤ S4x4096x4096.size a
  hwx1_4 : ∀ i : grid1.Coords, EltTy.bits .f32 = 32 ∨ (Rect.block (s := S4x4096x4096) S1x256x4096.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4096x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S1x256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S4x4096x1024, .f32⟩
  | .hbm, ⟨6, _⟩ => ⟨S1x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Spec.lean ====
/-
  The mathematics both programs compute, over the extended reals, as functions of array indices.

  Three activations x ∈ [4, 4096, 1024] (four batches of 4096 rows of 1024 features) pass through ONE affine map
  row · Wᵀ + b (the same weight W ∈ [1024, 1024] and bias b ∈ [1024] for all three), giving q, k, v. Within a batch
  the score of query row t against key row s is the inner product of the two rows; a row of scores is shifted by its
  maximum, exponentiated, and divided by the sum of the exponentials (a softmax over s); the output row t is the
  mixture of the value rows with those weights. The two results are the weights [4, 4096, 4096] and the mixtures
  [4, 4096, 1024].

  Every sum here is a plain finite sum of extended reals in one fixed arrangement, so no law that fails at the
  infinities is ever needed to compare two programs that both compute exactly these terms.
-/
import Idealize.ShloMosaic.PureOps.Ideal
import Idealize.ShloMosaic.Lib.ValueIdx

noncomputable section

open scoped BigOperators

namespace Cert.Spec

open Idealize.ShloMosaic Idealize.ShloMosaic.ValueIdx

/-- An activation or a projected activation: batch × row × feature. -/
abbrev Act : Shape := ⟨3, ![4, 4096, 1024]⟩
/-- The same rows with the batch axis folded into the row axis. -/
abbrev Flat : Shape := ⟨2, ![16384, 1024]⟩
/-- The weight, output feature × input feature (and its transpose, input × output). -/
abbrev Wt : Shape := ⟨2, ![1024, 1024]⟩
/-- The bias as a vector and as a one-row matrix. -/
abbrev Bias : Shape := ⟨1, ![1024]⟩
abbrev BiasRow : Shape := ⟨2, ![1, 1024]⟩
/-- The attention weights: batch × query row × key row. -/
abbrev Att : Shape := ⟨3, ![4, 4096, 4096]⟩

/-- The shared affine map at batch `n`, row `s`, output feature `o`: the row of `x` against row `o` of `w`, plus `b o`. -/
def lin (x : Act.Idx → EReal) (w : Wt.Idx → EReal) (b : Bias.Idx → EReal) (n : Fin 4) (s : Fin 4096) (o : Fin 1024) : EReal :=
  (∑ d : Fin 1024, x (ix3 n s d) * w (ix2 o d)) + b (ix1 o)

/-- The same as an array. -/
def linArr (x : Act.Idx → EReal) (w : Wt.Idx → EReal) (b : Bias.Idx → EReal) : Act.Idx → EReal := fun i =>
  lin x w b ⟨(i 0).val, (i 0).isLt⟩ ⟨(i 1).val, (i 1).isLt⟩ ⟨(i 2).val, (i 2).isLt⟩

theorem linArr_ix3 (x : Act.Idx → EReal) (w : Wt.Idx → EReal) (b : Bias.Idx → EReal) (n : Fin 4) (s : Fin 4096) (o : Fin 1024) :
    linArr x w b (ix3 n s o) = lin x w b n s o := rfl

/-- The affine map on flattened rows against the TRANSPOSED weight `wt` (input × output) and the bias as one row:
    at row `r`, column `o`, the row of `x` against column `o` of `wt`, plus the bias at `o`. -/
def linFlat (x : Flat.Idx → EReal) (wt : Wt.Idx → EReal) (b2 : BiasRow.Idx → EReal) : Flat.Idx → EReal := fun j =>
  (∑ d : Fin 1024, x (ix2 (⟨(j 0).val, (j 0).isLt⟩ : Fin 16384) d) * wt (ix2 d (⟨(j 1).val, (j 1).isLt⟩ : Fin 1024)))
    + b2 (ix2 (0 : Fin 1) (⟨(j 1).val, (j 1).isLt⟩ : Fin 1024))

theorem linFlat_ix2 (x : Flat.Idx → EReal) (wt : Wt.Idx → EReal) (b2 : BiasRow.Idx → EReal) (r : Fin 16384) (o : Fin 1024) :
    linFlat x wt b2 (ix2 r o) = (∑ d : Fin 1024, x (ix2 r d) * wt (ix2 d o)) + b2 (ix2 (0 : Fin 1) o) := rfl

/-- The score of query row `t` against key row `s` in batch `n`. -/
def score (q k : Act.Idx → EReal) (n : Fin 4) (t s : Fin 4096) : EReal := ∑ o : Fin 1024, q (ix3 n t o) * k (ix3 n s o)

/-- The largest score of query row `t` (the fold of `max` from −∞ over the key rows). -/
def top (q k : Act.Idx → EReal) (n : Fin 4) (t : Fin 4096) : EReal :=
  (Finset.univ : Finset (Fin 4096)).fold max (⊥ : EReal) (fun s => score q k n t s)

/-- The exponential of a score shifted by its row's largest. -/
def ex (q k : Act.Idx → EReal) (n : Fin 4) (t s : Fin 4096) : EReal := Ideal.exp (score q k n t s - top q k n t)

/-- The sum of a row's exponentials. -/
def mass (q k : Act.Idx → EReal) (n : Fin 4) (t : Fin 4096) : EReal := ∑ s : Fin 4096, ex q k n t s

/-- The attention weight of key row `s` for query row `t`. -/
def weight (q k : Act.Idx → EReal) (n : Fin 4) (t s : Fin 4096) : EReal := Ideal.div (ex q k n t s) (mass q k n t)

/-- The mixture of the value rows at query row `t`, feature `o`. -/
def mix (q k v : Act.Idx → EReal) (n : Fin 4) (t : Fin 4096) (o : Fin 1024) : EReal :=
  ∑ s : Fin 4096, weight q k n t s * v (ix3 n s o)

/-- The weights as an array of the projected queries and keys. -/
def attnArr (q k : Act.Idx → EReal) : Att.Idx → EReal := fun i =>
  weight q k ⟨(i 0).val, (i 0).isLt⟩ ⟨(i 1).val, (i 1).isLt⟩ ⟨(i 2).val, (i 2).isLt⟩

theorem attnArr_ix3 (q k : Act.Idx → EReal) (n : Fin 4) (t s : Fin 4096) : attnArr q k (ix3 n t s) = weight q k n t s := rfl

/-- The mixtures as an array of the projected queries, keys and values. -/
def mixArr (q k v : Act.Idx → EReal) : Act.Idx → EReal := fun i =>
  mix q k v ⟨(i 0).val, (i 0).isLt⟩ ⟨(i 1).val, (i 1).isLt⟩ ⟨(i 2).val, (i 2).isLt⟩

theorem mixArr_ix3 (q k v : Act.Idx → EReal) (n : Fin 4) (t : Fin 4096) (o : Fin 1024) : mixArr q k v (ix3 n t o) = mix q k v n t o := rfl

/-- The two results as functions of the five inputs. -/
def attnOf (x0 x1 : Act.Idx → EReal) (w : Wt.Idx → EReal) (b : Bias.Idx → EReal) : Att.Idx → EReal :=
  attnArr (linArr x0 w b) (linArr x1 w b)

def outOf (x0 x1 x2 : Act.Idx → EReal) (w : Wt.Idx → EReal) (b : Bias.Idx → EReal) : Act.Idx → EReal :=
  mixArr (linArr x0 w b) (linArr x1 w b) (linArr x2 w b)

end Cert.Spec

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.Region0.lean ====
/-
  The projection region: three results, each the affine map of one flattened activation.

  The region runs over 32 grid points. At point `t` it holds rows `512 t … 512 t + 511` of each of the three
  flattened activations `[16384, 1024]`, the whole transposed weight `[1024, 1024]` (input × output) and the bias as
  one row `[1, 1024]`, and writes rows `512 t … 512 t + 511` of three results: block · weight + bias, the product
  accumulated from zero and the bias row laid down every row of the block. The third product narrows its operands
  and its result to sixteen bits; over the extended reals a narrowing is the identity, so all three are the same
  arithmetic.

  Read at `(p, o)`, a block's result is `∑ d, block (p, d) · weight (d, o) + bias (0, o)`; the block's row `p` is row
  `512 t + p` of the activation, and the weight and the bias are read whole. So point `t` writes block `t` of the
  affine map `Cert.Spec.linFlat` of the whole arrays, and since row `r` lies in the block of point `r / 512` the
  blocks fill the result: after the region each result array IS that function of the arrays the region found.
-/
import proofs.«410990_j27968827031628_3_alg».proof.Proof.Gen.KernelIdeal.Frame
import proofs.«410990_j27968827031628_3_alg».proof.Proof.Spec
import proofs.«410990_j27968827031628_3_alg».proof.Proof.LibDot
import Idealize.ShloMosaic.Lib.Pipeline.Value
import Idealize.ShloMosaic.Lib.ValueIdx
import Idealize.ShloMosaic.Lib.ValueLayout

noncomputable section
namespace Cert.KernelIdeal.Reg0
open Idealize.ShloMosaic Idealize.ShloMosaic.TcCoe Idealize.SL.Sem Cert.KernelIdeal Cert.KernelIdeal.Gen
open Idealize.ShloMosaic.ValueIdx
open scoped BigOperators

/-! ## The body's arithmetic at an index -/

/-- A one-row matrix broadcast down the rows of an `[a, b]` array reads, at `(p, o)`, the row at `(0, o)`: the unit
    axis is pinned at `0`, the long axis is carried over. -/
theorem broadcastTo_1b_ab_apply {α : Type} {a b : ℕ} (hb : b ≠ 1) (v : (⟨2, ![1, b]⟩ : Shape).Idx → α)
    (h : (⟨2, ![1, b]⟩ : Shape).Broadcasts ⟨2, ![a, b]⟩) (p : Fin a) (o : Fin b) :
    broadcastTo ⟨2, ![a, b]⟩ v h (ix2 p o) = v (ix2 (0 : Fin 1) o) := by
  refine broadcastTo_apply v h (ix2 p o) (ix2 (0 : Fin 1) o) fun ax => ?_
  match ax with
  | ⟨0, _⟩ =>
    show (0 : ℕ) = if (1 : ℕ) = 1 then 0 else p.val
    rw [if_pos rfl]
  | ⟨1, _⟩ =>
    show o.val = if b = 1 then 0 else o.val
    rw [if_neg hb]

/-- The first projection's block: row `p` of the activation block against column `o` of the transposed weight, plus
    the bias at `o`. -/
theorem pay3_apply (x3 : Vec Ideal S1024x1024 .f32) (x4 : Vec Ideal S1x1024 .f32) (x0 : Vec Ideal S512x1024 .f32)
    (p : Fin 512) (o : Fin 1024) :
    k0_pay3 x3 x4 x0 (ix2 p o) = (∑ d : Fin 1024, x0 (ix2 p d) * x3 (ix2 d o)) + x4 (ix2 (0 : Fin 1) o) := by
  unfold k0_pay3 k0_pay1 k0_pay2
  rw [addf_apply, broadcastTo_1b_ab_apply (by decide), shapeCast_self, shapeCast_self, shapeCast_self,
    Cert.LibDot.matmul_plain_apply dot_S512x1024_S1024x1024_S512x1024_1_0_0_1_n_n rfl rfl rfl rfl rfl rfl]

/-- The second projection's block: the same arithmetic on the second activation's block. -/
theorem pay4_apply (x3 : Vec Ideal S1024x1024 .f32) (x4 : Vec Ideal S1x1024 .f32) (x1 : Vec Ideal S512x1024 .f32)
    (p : Fin 512) (o : Fin 1024) :
    k0_pay4 x3 x4 x1 (ix2 p o) = (∑ d : Fin 1024, x1 (ix2 p d) * x3 (ix2 d o)) + x4 (ix2 (0 : Fin 1) o) := by
  unfold k0_pay4 k0_pay1 k0_pay2
  rw [addf_apply, broadcastTo_1b_ab_apply (by decide), shapeCast_self, shapeCast_self, shapeCast_self,
    Cert.LibDot.matmul_plain_apply dot_S512x1024_S1024x1024_S512x1024_1_0_0_1_n_n rfl rfl rfl rfl rfl rfl]

/-- The third projection's block: both operands and the result pass through a narrowing to sixteen bits, which over
    the extended reals is the identity, so the arithmetic is the same again. -/
theorem pay5_apply (x3 : Vec Ideal S1024x1024 .f32) (x4 : Vec Ideal S1x1024 .f32) (x2 : Vec Ideal S512x1024 .f32)
    (p : Fin 512) (o : Fin 1024) :
    (k0_pay5 x3 x4 x2 (ix2 p o) : EReal) = (∑ d : Fin 1024, x2 (ix2 p d) * x3 (ix2 d o)) + x4 (ix2 (0 : Fin 1) o) := by
  unfold k0_pay5 k0_pay1 k0_pay2
  rw [truncf_apply, addf_apply, broadcastTo_1b_ab_apply (by decide), shapeCast_self, shapeCast_self, shapeCast_self,
    Cert.LibDot.matmul_plain_apply dot_S512x1024_S1024x1024_S512x1024_1_0_0_1_n_n rfl rfl rfl rfl rfl rfl]
  rfl

/-! ## Where each window's block sits at a grid point -/

theorem hz : (![0, 0] : Fin 2 → Nat) = fun _ => 0 := funext fun a => by fin_cases a <;> rfl

/-- The block index maps, decided once over the grid: the three activations and the three results move down the
    rows with the point; the weight and the bias stay at their one block. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem N_eq : cfg0.N = 32 := by decide

variable (V : (c : Dev nD) → (b : Ref sig .tc) → Buf (Elt Ideal) ((c : Thread nD τ).loc b))

/-- The weight's block at every point is the whole transposed weight. -/
theorem wt_block (c : Dev nD) (t : Fin cfg0.N) :
    (iblk0 V c 3 t : Vec Ideal S1024x1024 .f32) = (V c main_v0 : S1024x1024.Idx → EReal) := by
  obtain ⟨⟨e0, e1⟩, -⟩ := idx_fixed t
  funext y
  show (V c main_v0 : S1024x1024.Idx → EReal) (((cfg0.win 3).blk t).view.emb y) = (V c main_v0 : S1024x1024.Idx → EReal) y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The bias's block at every point is the whole bias row. -/
theorem bias_block (c : Dev nD) (t : Fin cfg0.N) :
    (iblk0 V c 4 t : Vec Ideal S1x1024 .f32) = (V c main_v1 : S1x1024.Idx → EReal) := by
  obtain ⟨-, e0, e1⟩ := idx_fixed t
  funext y
  show (V c main_v1 : S1x1024.Idx → EReal) (((cfg0.win 4).blk t).view.emb y) = (V c main_v1 : S1x1024.Idx → EReal) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The first activation's block at point `t` is rows `512 t … 512 t + 511` of the flattened activation. -/
theorem act0_block (c : Dev nD) (t : Fin cfg0.N) (p : Fin 512) (d : Fin 1024) (r : Fin 16384) (hr : r.val = t.val * 512 + p.val) :
    (iblk0 V c 0 t : Vec Ideal S512x1024 .f32) (ix2 p d) = (V c main_v2 : S16384x1024.Idx → EReal) (ix2 r d) := by
  obtain ⟨⟨e0, e1⟩, -⟩ := idx_rows t
  show (V c main_v2 : S16384x1024.Idx → EReal) (((cfg0.win 0).blk t).view.emb (ix2 p d)) = _
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * d.val = d.val; omega

/-- The second activation's block at point `t` is rows `512 t … 512 t + 511` of the flattened activation. -/
theorem act1_block (c : Dev nD) (t : Fin cfg0.N) (p : Fin 512) (d : Fin 1024) (r : Fin 16384) (hr : r.val = t.val * 512 + p.val) :
    (iblk0 V c 1 t : Vec Ideal S512x1024 .f32) (ix2 p d) = (V c main_v3 : S16384x1024.Idx → EReal) (ix2 r d) := by
  obtain ⟨-, ⟨e0, e1⟩, -⟩ := idx_rows t
  show (V c main_v3 : S16384x1024.Idx → EReal) (((cfg0.win 1).blk t).view.emb (ix2 p d)) = _
  refine congrArg _ (funext fun a => Fin.ext ?_)
  match a with
  | ⟨0, _⟩ => show win0_1.index t (0 : Fin 2) * 512 + 1 * p.val = r.val; omega
  | ⟨1, _⟩ => show win0_1.index t (1 : Fin 2) * 1024 + 1 * d.val = d.val; omega

/-- The third activation's block at point `t` is rows `512 t … 512 t + 511` of the flattened activation. -/
theorem act2_block (c : Dev nD) (t : Fin cfg0.N) (p : Fin 512) (d : Fin 1024) (r : Fin 16384) (hr : r.val = t.val * 512 + p.val) :
    (iblk0 V c 2 t : Vec Ideal S512x1024 .f32) (ix2 p d) = (V c main_v4 : S16384x1024.Idx → EReal) (ix2 r d) := by
  obtain ⟨-, -, ⟨e0, e1⟩, -⟩ := idx_rows t
  show (V c main_v4 : S16384x1024.Idx → EReal) (((cfg0.win 2).blk t).view.emb (ix2 p d)) = _
  refine congrArg _ (funext fun a => Fin.ext ?_)
  match a with
  | ⟨0, _⟩ => show win0_2.index t (0 : Fin 2) * 512 + 1 * p.val = r.val; omega
  | ⟨1, _⟩ => show win0_2.index t (1 : Fin 2) * 1024 + 1 * d.val = d.val; omega

/-! ## A block of the affine map -/

/-- Over variables: let `x0` hold rows `512 n …` of `X`, and let `f` be, at `(p, o)`, row `p` of `x0` against column `o`
    of `W` plus `B` at `o`. Then `f` at `y` is the affine map of `X` at row `512 n + y 0`, column `y 1`. -/
theorem lin_block (X : S16384x1024.Idx → EReal) (W : S1024x1024.Idx → EReal) (B : S1x1024.Idx → EReal)
    (x0 : S512x1024.Idx → EReal) (f : S512x1024.Idx → EReal)
    (hf : ∀ (p : Fin 512) (o : Fin 1024), f (ix2 p o) = (∑ d : Fin 1024, x0 (ix2 p d) * W (ix2 d o)) + B (ix2 (0 : Fin 1) o))
    (n : ℕ) (h0 : ∀ (p : Fin 512) (d : Fin 1024) (r : Fin 16384), r.val = n * 512 + p.val → x0 (ix2 p d) = X (ix2 r d))
    (y : S512x1024.Idx) (i : S16384x1024.Idx) (hi0 : (i 0).val = n * 512 + (y 0).val) (hi1 : (i 1).val = (y 1).val) :
    f y = Cert.Spec.linFlat X W B i := by
  obtain ⟨p, o, rfl⟩ : ∃ (p : Fin 512) (o : Fin 1024), y = ix2 p o := ⟨y 0, y 1, eq_ix2 y⟩
  obtain ⟨r, o', rfl⟩ : ∃ (r : Fin 16384) (o' : Fin 1024), i = ix2 r o' := ⟨i 0, i 1, eq_ix2 i⟩
  obtain rfl : o' = o := Fin.ext hi1
  rw [hf, Cert.Spec.linFlat_ix2]
  congr 1
  exact Finset.sum_congr rfl fun d _ => by rw [h0 p d r hi0]

/-! ## The first result -/

/-- WHAT POINT `t` WRITES BACK to the first result: block `t` of the affine map of the first activation. -/
theorem flushed5_eq (c : Dev nD) (t : Fin cfg0.N) :
    (dat0 (F := Ideal) V c).flushed 5 t
      = ((cfg0.win 5).blk t).view.read (Elt Ideal) (Cert.Spec.linFlat (V c main_v2) (V c main_v0) (V c main_v1)) := by
  show (cfg0.win 5).cut (grid0.coords t) ((dat0 V c).after 5 t) = _
  rw [after0_5]
  unfold out0_5
  rw [View.canon_unit_zero hz]
  simp only [View.ld_unit_zero (S := S1024x1024) hz, View.ld_unit_zero (S := S1x1024) hz, View.ld_unit_zero (S := S512x1024) hz]
  rw [wt_block V c t, bias_block V c t]
  obtain ⟨-, -, -, ⟨e0, e1⟩, -⟩ := idx_rows t
  funext j
  show (k0_pay3 (V c main_v0 : S1024x1024.Idx → EReal) (V c main_v1 : S1x1024.Idx → EReal) (iblk0 V c 0 t) j : EReal)
    = Cert.Spec.linFlat (V c main_v2) (V c main_v0) (V c main_v1) (((cfg0.win 5).blk t).view.emb j)
  refine lin_block _ _ _ (iblk0 V c 0 t : Vec Ideal S512x1024 .f32) _ (pay3_apply _ _ _) t.val
    (fun p d r hr => act0_block V c t p d r hr) j _ ?_ ?_
  · show win0_5.index t (0 : Fin 2) * 512 + 1 * (j 0).val = t.val * 512 + (j 0).val; omega
  · show win0_5.index t (1 : Fin 2) * 1024 + 1 * (j 1).val = (j 1).val; omega

/-- An index of the first result is in point `t`'s block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_0).slice (win0_5.rect t)).set ↔ _
  rw [View.set_slice_whole, Rect.mem_set_unit]
  exact Iff.rfl

/-- Every index of the first result is in some point's block: row `r` is in the block of point `r / 512`. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  let t : Fin cfg0.N := ⟨(i 0).val / 512, by rw [N_eq]; omega⟩
  have ht : t.val = (i 0).val / 512 := rfl
  obtain ⟨-, -, -, ⟨e0, e1⟩, -⟩ := idx_rows t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE FIRST RESULT after the region: the affine map of the first flattened activation. -/
theorem final0_5 (c : Dev nD) : (dat0 (F := Ideal) V c).arrAt 5 cfg0.N = Cert.Spec.linFlat (V c main_v2) (V c main_v0) (V c main_v1) :=
  (dat0 (F := Ideal) V c).arrAt_eq_of_cover 5 (Cert.Spec.linFlat (V c main_v2) (V c main_v0) (V c main_v1))
    (fun t _ => flushed5_eq V c t) cover5

/-! ## The second result -/

/-- WHAT POINT `t` WRITES BACK to the second result: block `t` of the affine map of the second activation. -/
theorem flushed6_eq (c : Dev nD) (t : Fin cfg0.N) :
    (dat0 (F := Ideal) V c).flushed 6 t
      = ((cfg0.win 6).blk t).view.read (Elt Ideal) (Cert.Spec.linFlat (V c main_v3) (V c main_v0) (V c main_v1)) := by
  show (cfg0.win 6).cut (grid0.coords t) ((dat0 V c).after 6 t) = _
  rw [after0_6]
  unfold out0_6
  rw [View.canon_unit_zero hz]
  simp only [View.ld_unit_zero (S := S1024x1024) hz, View.ld_unit_zero (S := S1x1024) hz, View.ld_unit_zero (S := S512x1024) hz]
  rw [wt_block V c t, bias_block V c t]
  obtain ⟨-, -, -, -, ⟨e0, e1⟩, -⟩ := idx_rows t
  funext j
  show (k0_pay4 (V c main_v0 : S1024x1024.Idx → EReal) (V c main_v1 : S1x1024.Idx → EReal) (iblk0 V c 1 t) j : EReal)
    = Cert.Spec.linFlat (V c main_v3) (V c main_v0) (V c main_v1) (((cfg0.win 6).blk t).view.emb j)
  refine lin_block _ _ _ (iblk0 V c 1 t : Vec Ideal S512x1024 .f32) _ (pay4_apply _ _ _) t.val
    (fun p d r hr => act1_block V c t p d r hr) j _ ?_ ?_
  · show win0_6.index t (0 : Fin 2) * 512 + 1 * (j 0).val = t.val * 512 + (j 0).val; omega
  · show win0_6.index t (1 : Fin 2) * 1024 + 1 * (j 1).val = (j 1).val; omega

/-- An index of the second result is in point `t`'s block iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v5_1).slice (win0_6.rect t)).set ↔ _
  rw [View.set_slice_whole, Rect.mem_set_unit]
  exact Iff.rfl

/-- Every index of the second result is in some point's block: row `r` is in the block of point `r / 512`. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  let t : Fin cfg0.N := ⟨(i 0).val / 512, by rw [N_eq]; omega⟩
  have ht : t.val = (i 0).val / 512 := rfl
  obtain ⟨-, -, -, -, ⟨e0, e1⟩, -⟩ := idx_rows t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE SECOND RESULT after the region: the affine map of the second flattened activation. -/
theorem final0_6 (c : Dev nD) : (dat0 (F := Ideal) V c).arrAt 6 cfg0.N = Cert.Spec.linFlat (V c main_v3) (V c main_v0) (V c main_v1) :=
  (dat0 (F := Ideal) V c).arrAt_eq_of_cover 6 (Cert.Spec.linFlat (V c main_v3) (V c main_v0) (V c main_v1))
    (fun t _ => flushed6_eq V c t) cover6

/-! ## The third result -/

/-- WHAT POINT `t` WRITES BACK to the third result: block `t` of the affine map of the third activation. -/
theorem flushed7_eq (c : Dev nD) (t : Fin cfg0.N) :
    (dat0 (F := Ideal) V c).flushed 7 t
      = ((cfg0.win 7).blk t).view.read (Elt Ideal) (Cert.Spec.linFlat (V c main_v4) (V c main_v0) (V c main_v1)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S1x1024) hz, View.ld_unit_zero (S := S512x1024) hz]
  rw [wt_block V c t, bias_block V c t]
  obtain ⟨-, -, -, -, -, e0, e1⟩ := idx_rows t
  funext j
  show (k0_pay5 (V c main_v0 : S1024x1024.Idx → EReal) (V c main_v1 : S1x1024.Idx → EReal) (iblk0 V c 2 t) j : EReal)
    = Cert.Spec.linFlat (V c main_v4) (V c main_v0) (V c main_v1) (((cfg0.win 7).blk t).view.emb j)
  refine lin_block _ _ _ (iblk0 V c 2 t : Vec Ideal S512x1024 .f32) _ (pay5_apply _ _ _) t.val
    (fun p d r hr => act2_block V c t p d r hr) j _ ?_ ?_
  · show win0_7.index t (0 : Fin 2) * 512 + 1 * (j 0).val = t.val * 512 + (j 0).val; omega
  · show win0_7.index t (1 : Fin 2) * 1024 + 1 * (j 1).val = (j 1).val; omega

/-- An index of the third result is in point `t`'s block iff each coordinate is in the block's range on its axis. -/
theorem mem_blk7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v5_2).slice (win0_7.rect t)).set ↔ _
  rw [View.set_slice_whole, Rect.mem_set_unit]
  exact Iff.rfl

/-- Every index of the third result is in some point's block: row `r` is in the block of point `r / 512`. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  let t : Fin cfg0.N := ⟨(i 0).val / 512, by rw [N_eq]; omega⟩
  have ht : t.val = (i 0).val / 512 := rfl
  obtain ⟨-, -, -, -, -, e0, e1⟩ := idx_rows t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE THIRD RESULT after the region: the affine map of the third flattened activation. -/
theorem final0_7 (c : Dev nD) : (dat0 (F := Ideal) V c).arrAt 7 cfg0.N = Cert.Spec.linFlat (V c main_v4) (V c main_v0) (V c main_v1) :=
  (dat0 (F := Ideal) V c).arrAt_eq_of_cover 7 (Cert.Spec.linFlat (V c main_v4) (V c main_v0) (V c main_v1))
    (fun t _ => flushed7_eq V c t) cover7

end Cert.KernelIdeal.Reg0
end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.LibDotNT.lean ====
/-
  A matrix product against a transposed right operand, read at an index, at the ideal values.

  For dimension numbers that contract the left operand's axis 1 with the right operand's axis 1 and keep the
  left's axis 0 and the right's axis 0, with no batch axis — an `M × K` by `N × K` product, `l · rᵀ` —, the result
  at `(a, b)` is `∑ k, l (a, k) · r (b, k)` over `k : Fin K`: for the kernel's matrix unit accumulating into a zero
  vector and for the host's `dot_general` alike. The library states both as a sum over the contraction shape's
  indices at the operand indices `lhsIdx` / `rhsIdx`; here those are read off, coordinate by coordinate, and the
  sum is re-indexed by the contraction shape's one coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} (D : DotDims ⟨2, ![M, K]⟩ ⟨2, ![N, K]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the result's column. -/
theorem rhs_row (hlb : D.lhsBatch = []) (hrb : D.rhsBatch = []) (hln : D.lhsNonContracting = [0]) (hrn : D.rhsNonContracting = [0])
    (j : (⟨2, ![M, N]⟩ : Shape).Idx) (k : D.contr.Idx) :
    (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column is the contraction coordinate. -/
theorem rhs_col (hrc : D.rhsContracting = [1]) (j : (⟨2, ![M, N]⟩ : Shape).Idx) (k : D.contr.Idx) :
    (D.rhsIdx j k 1).val = (k ⟨0, by rw [D.rank_contr, ← D.length_contracting, hrc]; exact Nat.one_pos⟩).val :=
  D.rhsIdx_val_of_single hrc j k

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and row `b` of the right. -/
theorem sum_nt (hlc : D.lhsContracting = [1]) (hrc : D.rhsContracting = [1]) (hln : D.lhsNonContracting = [0])
    (hrn : D.rhsNonContracting = [0]) (hlb : D.lhsBatch = []) (hrb : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 b k := by
    funext x; refine Fin.ext ?_
    match x with
    | ⟨0, _⟩ => exact rhs_row D hlb hrb hln hrn _ _
    | ⟨1, _⟩ => exact (rhs_col D hrc _ _).trans hk
  rw [e1, e2]

/-- The kernel's matrix product into a zero accumulator, read at `(a, b)`. -/
theorem matmul_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  show FloatOps.matmul D prec l r (constant ⟨2, ![M, N]⟩ .f32 0x00000000#32) (ix2 a b) = _
  rw [Ideal.matmul_constant_zero_apply]
  exact sum_nt D hlc hrc hln hrn hlb hrb l r a b

/-- The host's product read at `(a, b)`. -/
theorem dotGeneral_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    Host.dotGeneral D prec l r (ix2 a b) = ∑ k : Fin K, l (ix2 a k) * r (ix2 b k) := by
  show FloatOps.dotGeneral D prec .single l r (ix2 a b) = _
  rw [Ideal.dotGeneral_apply]
  exact sum_nt D hlc hrc hln hrn hlb hrb l r a b

end Cert.LibDotNT

end
-- ==== Proof.LibRow2.lean ====
/-
  Rows of an `[a, b]` array at the ideal values, read at an index, and the unit axis of a `[1, a, b]` block.

  * a maximum-reduction of an `[a, b]` array along its last axis is, at row `r`, the fold of `max` from the accumulator's
    value over the `b` entries of the row; an add-reduction is the sum of the row's entries;
  * a `[1, a, b]` array cast to `[a, b]` reads, at `(p, s)`, the array at `(0, p, s)`, and an `[a, b]` array cast to
    `[1, a, b]` reads, at `(u, p, s)`, the array at `(p, s)`: the row-major positions agree, the unit axis weighing nothing.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

/-- The reduced index `r` with the coordinate `k` put back on the last axis is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_last h r k)
  exact congrArg (fun f => Finset.fold max (Ideal.ofBits φ acc) f (Finset.univ : Finset (Fin b))) hf

/-- An add-reduction along the last axis, at row `r`: the sum of the row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- The f32 word of −∞ is the bottom of the extended reals. -/
theorem ofBits_neg_inf_f32 : Ideal.ofBits .f32 0xFF800000#32 = (⊥ : EReal) := by
  simp [Ideal.ofBits, Ideal.ieee]

variable {α : Type}

/-- A `[1, a, b]` array cast to `[a, b]` reads, at `(p, s)`, the array at `(0, p, s)`. -/
theorem dropUnit_apply (x : (⟨3, ![1, a, b]⟩ : Shape).Idx → α) (h : (⟨3, ![1, a, b]⟩ : Shape).ShapeCasts ⟨2, ![a, b]⟩)
    (p : Fin a) (s : Fin b) : shapeCast ⟨2, ![a, b]⟩ x h (ix2 p s) = x (ix3 (0 : Fin 1) p s) :=
  shapeCast_apply x h _ _ (by
    rw [Shape.rowMajor_val_three, Shape.rowMajor_val_two]
    show ((0 : ℕ) * a + p.val) * b + s.val = p.val * b + s.val
    rw [Nat.zero_mul, Nat.zero_add])

/-- An `[a, b]` array cast to `[1, a, b]` reads, at `(u, p, s)`, the array at `(p, s)`. -/
theorem addUnit_apply (x : (⟨2, ![a, b]⟩ : Shape).Idx → α) (h : (⟨2, ![a, b]⟩ : Shape).ShapeCasts ⟨3, ![1, a, b]⟩)
    (u : Fin 1) (p : Fin a) (s : Fin b) : shapeCast ⟨3, ![1, a, b]⟩ x h (ix3 u p s) = x (ix2 p s) :=
  shapeCast_apply x h _ _ (by
    have hu : u.val = 0 := by omega
    rw [Shape.rowMajor_val_two, Shape.rowMajor_val_three]
    show p.val * b + s.val = (u.val * a + p.val) * b + s.val
    rw [hu, Nat.zero_mul, Nat.zero_add])

end Cert.LibRow2

end
-- ==== Proof.AttnBody.lean ====
/-
  The attention body on one block, at the ideal values, read at an index.

  The body holds a block of 256 query rows `x0` and all 4096 key rows `x1` and value rows `x2` of one batch (each with
  a leading unit axis). Its first result, at (query row p, key row s), is the softmax weight: the score
  `∑ o, x0 p o · x1 s o`, shifted by the largest score of row p, exponentiated, divided by the sum of row p's
  exponentials. Its second, at (p, o), is `∑ s, weight p s · x2 s o`. Changes of float format are the identity here.
  When the block's rows are rows of whole arrays `q`, `k`, `v`, these are the specification's weight and mixture.
-/
import proofs.«410990_j27968827031628_3_alg».proof.Proof.Gen.KernelIdeal.Skeleton
import proofs.«410990_j27968827031628_3_alg».proof.Proof.Spec
import proofs.«410990_j27968827031628_3_alg».proof.Proof.LibColumn
import proofs.«410990_j27968827031628_3_alg».proof.Proof.LibDot
import proofs.«410990_j27968827031628_3_alg».proof.Proof.LibDotNT
import proofs.«410990_j27968827031628_3_alg».proof.Proof.LibRow2
import Idealize.ShloMosaic.Lib.Pipeline.Value
import Idealize.ShloMosaic.Lib.ValueLayout

noncomputable section

open scoped BigOperators

namespace Cert.KernelIdeal.AttnBody

open Idealize.ShloMosaic Idealize.ShloMosaic.ValueIdx Cert.KernelIdeal Cert.KernelIdeal.Gen

variable (x0 : Vec Ideal S1x256x1024 .f32) (x1 : Vec Ideal S1x4096x1024 .f32)

/-- The score of the block's query row `p` against key row `s`. -/
def sc (p : Fin 256) (s : Fin 4096) : EReal := ∑ o : Fin 1024, x0 (ix3 (0 : Fin 1) p o) * x1 (ix3 (0 : Fin 1) s o)
/-- The largest score of row `p`. -/
def tp (p : Fin 256) : EReal := (Finset.univ : Finset (Fin 4096)).fold max (⊥ : EReal) (fun s => sc x0 x1 p s)
/-- The shifted exponential. -/
def ex (p : Fin 256) (s : Fin 4096) : EReal := Ideal.exp (sc x0 x1 p s - tp x0 x1 p)
/-- The sum of row `p`'s exponentials. -/
def ms (p : Fin 256) : EReal := ∑ s : Fin 4096, ex x0 x1 p s
/-- The weight. -/
def wt (p : Fin 256) (s : Fin 4096) : EReal := Ideal.div (ex x0 x1 p s) (ms x0 x1 p)

/-- The matrix unit's product of the query block with the transposed key block is the score. -/
theorem scores_apply (p : Fin 256) (s : Fin 4096) :
    (matmul (F := Ideal) (φ₁ := .f32) (φ₂ := .f32) dot_S256x1024_S4096x1024_S256x4096_1_1_0_0_n_n (some .fp32)
      (shapeCast S256x1024 x0 shapeCasts_S1x256x1024_S256x1024)
      (shapeCast S4096x1024 x1 shapeCasts_S1x4096x1024_S4096x1024) (constant S256x4096 .f32 0x00000000#32)) (ix2 p s) = sc x0 x1 p s := by
  rw [Cert.LibDotNT.matmul_nt_apply _ rfl rfl rfl rfl rfl rfl]
  unfold sc
  refine Finset.sum_congr rfl fun o _ => ?_
  rw [Cert.LibRow2.dropUnit_apply, Cert.LibRow2.dropUnit_apply]

/-- The largest entry of row `p` of a score matrix. -/
def rowTop (L : FVec Ideal S256x4096 .f32) (p : Fin 256) : EReal :=
  (Finset.univ : Finset (Fin 4096)).fold max (⊥ : EReal) (fun s => L (ix2 p s))

/-- A row's largest entry, cast to a column and laid back along the row. -/
theorem rowTop_apply (L : FVec Ideal S256x4096 .f32) (p : Fin 256) (s : Fin 4096) :
    broadcastTo S256x4096 (shapeCast S256x1 (multiReduction .maximumf [1] S256 L 0xFF800000#32 reduces_S256x4096_S256 (.inl rfl) rfl) shapeCasts_S256_S256x1)
      broadcasts_S256x1_S256x4096 (ix2 p s) = rowTop L p := by
  rw [Cert.LibColumn.column_of_vector_apply]
  refine (Cert.LibRow2.rowMax_apply L 0xFF800000#32 reduces_S256x4096_S256 (.inl rfl) rfl p).trans ?_
  rw [Cert.LibRow2.ofBits_neg_inf_f32]
  rfl

/-- The softmax of a score matrix along its rows, at (p, s). -/
theorem softmax_row (L : FVec Ideal S256x4096 .f32) (p : Fin 256) (s : Fin 4096) :
    divf (exp (subf L (broadcastTo S256x4096 (shapeCast S256x1 (multiReduction .maximumf [1] S256 L 0xFF800000#32 reduces_S256x4096_S256 (.inl rfl) rfl) shapeCasts_S256_S256x1)
        broadcasts_S256x1_S256x4096)))
      (broadcastTo S256x4096 (shapeCast S256x1 (multiReduction .add [1] S256
        (exp (subf L (broadcastTo S256x4096 (shapeCast S256x1 (multiReduction .maximumf [1] S256 L 0xFF800000#32 reduces_S256x4096_S256 (.inl rfl) rfl) shapeCasts_S256_S256x1)
          broadcasts_S256x1_S256x4096))) 0x00000000#32 reduces_S256x4096_S256 (.inl rfl) rfl) shapeCasts_S256_S256x1) broadcasts_S256x1_S256x4096) (ix2 p s)
      = Ideal.div (Ideal.exp (L (ix2 p s) - rowTop L p)) (∑ s' : Fin 4096, Ideal.exp (L (ix2 p s') - rowTop L p)) := by
  have hex : ∀ b : Fin 4096,
      exp (subf L (broadcastTo S256x4096 (shapeCast S256x1 (multiReduction .maximumf [1] S256 L 0xFF800000#32 reduces_S256x4096_S256 (.inl rfl) rfl) shapeCasts_S256_S256x1)
        broadcasts_S256x1_S256x4096)) (ix2 p b) = Ideal.exp (L (ix2 p b) - rowTop L p) := by
    intro b
    show Ideal.exp (L (ix2 p b) - _) = _
    rw [rowTop_apply]
  generalize exp (subf L (broadcastTo S256x4096 (shapeCast S256x1 (multiReduction .maximumf [1] S256 L 0xFF800000#32 reduces_S256x4096_S256 (.inl rfl) rfl) shapeCasts_S256_S256x1)
        broadcasts_S256x1_S256x4096)) = E at hex ⊢
  show Ideal.div (E (ix2 p s)) _ = _
  rw [hex s, Cert.LibColumn.column_of_vector_apply]
  refine congrArg (Ideal.div _) ((Cert.LibRow2.rowSum_apply E 0x00000000#32 reduces_S256x4096_S256 (.inl rfl) rfl p).trans ?_)
  exact Finset.sum_congr rfl fun k _ => hex k

/-- The first payload at (p, s) is the weight. -/
theorem pay1_apply (p : Fin 256) (s : Fin 4096) : k1_pay1 x0 x1 (ix2 p s) = wt x0 x1 p s := by
  unfold k1_pay1
  refine (softmax_row _ p s).trans ?_
  unfold wt ms ex tp rowTop
  simp only [scores_apply]

/-- The weights payload keeps a leading unit axis. -/
theorem pay2_apply (u : Fin 1) (p : Fin 256) (s : Fin 4096) : k1_pay2 x0 x1 (ix3 u p s) = wt x0 x1 p s := by
  unfold k1_pay2
  rw [Cert.LibRow2.addUnit_apply]
  exact pay1_apply x0 x1 p s

/-- The mixture payload at (p, o): the weights of row `p` against column `o` of the value rows. -/
theorem pay3_apply (x2 : Vec Ideal S1x4096x1024 .bf16) (u : Fin 1) (p : Fin 256) (o : Fin 1024) :
    k1_pay3 x0 x1 x2 (ix3 u p o) = ∑ s : Fin 4096, wt x0 x1 p s * x2 (ix3 (0 : Fin 1) s o) := by
  unfold k1_pay3
  rw [Cert.LibRow2.addUnit_apply, Cert.LibDot.matmul_plain_apply _ rfl rfl rfl rfl rfl rfl]
  refine Finset.sum_congr rfl fun s _ => ?_
  rw [Cert.LibRow2.dropUnit_apply]
  show k1_pay1 x0 x1 (ix2 p s) * _ = _
  rw [pay1_apply]

/-- When the block's rows are rows `r0 + p` of batch `n` of `q` and the key rows those of `k`, the weight is the
    specification's. -/
theorem wt_eq_weight (q k : Cert.Spec.Act.Idx → EReal) (n : Fin 4) (p : Fin 256) (t : Fin 4096)
    (h0 : ∀ o : Fin 1024, x0 (ix3 (0 : Fin 1) p o) = q (ix3 n t o))
    (h1 : ∀ (s : Fin 4096) (o : Fin 1024), x1 (ix3 (0 : Fin 1) s o) = k (ix3 n s o)) (s : Fin 4096) :
    wt x0 x1 p s = Cert.Spec.weight q k n t s := by
  unfold wt ms ex tp sc Cert.Spec.weight Cert.Spec.mass Cert.Spec.ex Cert.Spec.top Cert.Spec.score
  simp only [h0, h1]

/-- The weights payload at a block index `y`, against an index `i` of the whole weights array: when the block's query
    row `y 1` is row `i 1` of batch `i 0` of `q`, its key rows are the batch's rows of `k`, and the key coordinates agree. -/
theorem weight_block (q k : Cert.Spec.Act.Idx → EReal) (y : S1x256x4096.Idx) (i : Cert.Spec.Att.Idx)
    (h0 : ∀ o : Fin 1024, x0 (ix3 (0 : Fin 1) (⟨(y 1).val, (y 1).isLt⟩ : Fin 256) o)
      = q (ix3 (⟨(i 0).val, (i 0).isLt⟩ : Fin 4) (⟨(i 1).val, (i 1).isLt⟩ : Fin 4096) o))
    (h1 : ∀ (s : Fin 4096) (o : Fin 1024), x1 (ix3 (0 : Fin 1) s o) = k (ix3 (⟨(i 0).val, (i 0).isLt⟩ : Fin 4) s o))
    (h2 : (y 2).val = (i 2).val) :
    k1_pay2 x0 x1 y = Cert.Spec.attnArr q k i := by
  obtain ⟨u, p, s, rfl⟩ : ∃ (u : Fin 1) (p : Fin 256) (s : Fin 4096), y = ix3 u p s := ⟨y 0, y 1, y 2, eq_ix3 y⟩
  rw [pay2_apply]
  refine (wt_eq_weight x0 x1 q k ⟨(i 0).val, (i 0).isLt⟩ p ⟨(i 1).val, (i 1).isLt⟩ h0 h1 s).trans ?_
  unfold Cert.Spec.attnArr
  exact congrArg (Cert.Spec.weight q k _ _) (Fin.ext h2)

/-- The mixture payload at a block index `y`, against an index `i` of the whole output array. -/
theorem mix_block (x2 : Vec Ideal S1x4096x1024 .bf16) (q k v : Cert.Spec.Act.Idx → EReal) (y : S1x256x1024.Idx) (i : Cert.Spec.Act.Idx)
    (h0 : ∀ o : Fin 1024, x0 (ix3 (0 : Fin 1) (⟨(y 1).val, (y 1).isLt⟩ : Fin 256) o)
      = q (ix3 (⟨(i 0).val, (i 0).isLt⟩ : Fin 4) (⟨(i 1).val, (i 1).isLt⟩ : Fin 4096) o))
    (h1 : ∀ (s : Fin 4096) (o : Fin 1024), x1 (ix3 (0 : Fin 1) s o) = k (ix3 (⟨(i 0).val, (i 0).isLt⟩ : Fin 4) s o))
    (hv : ∀ (s : Fin 4096) (o : Fin 1024), x2 (ix3 (0 : Fin 1) s o) = v (ix3 (⟨(i 0).val, (i 0).isLt⟩ : Fin 4) s o))
    (h2 : (y 2).val = (i 2).val) :
    k1_pay3 x0 x1 x2 y = Cert.Spec.mixArr q k v i := by
  obtain ⟨u, p, o, rfl⟩ : ∃ (u : Fin 1) (p : Fin 256) (o : Fin 1024), y = ix3 u p o := ⟨y 0, y 1, y 2, eq_ix3 y⟩
  rw [pay3_apply]
  unfold Cert.Spec.mixArr Cert.Spec.mix
  refine Finset.sum_congr rfl fun s _ => ?_
  rw [wt_eq_weight x0 x1 q k ⟨(i 0).val, (i 0).isLt⟩ p ⟨(i 1).val, (i 1).isLt⟩ h0 h1 s, hv s o]
  exact congrArg (fun z => Cert.Spec.weight q k _ _ s * v (ix3 _ s z)) (Fin.ext h2)

end Cert.KernelIdeal.AttnBody

end
-- ==== Proof.Region1.lean ====
/-
  The attention region's two result arrays, as whole-array functions of the arrays the region is entered with.

  The region walks a 4 × 16 grid: point (n, g) holds query rows 256·g … 256·g + 255 of batch n, and all key and value rows
  of batch n, and writes back rows 256·g … of batch n of the weights [4, 4096, 4096] and of the mixtures [4, 4096, 1024].
  A row of either result depends on the query array only through that same row, and on the key and value arrays only
  through batch n, so what every point writes is its block of ONE function of the whole arrays — the specification's
  weights and mixtures — and the 64 blocks tile each result.
-/
import proofs.«410990_j27968827031628_3_alg».proof.Proof.Gen.KernelIdeal.Frame
import proofs.«410990_j27968827031628_3_alg».proof.Proof.Spec
import proofs.«410990_j27968827031628_3_alg».proof.Proof.AttnBody
import Idealize.ShloMosaic.Lib.Pipeline.Value

set_option maxRecDepth 16384

noncomputable section

namespace Cert.KernelIdeal.Reg1

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem origin3 : (![0, 0, 0] : Fin 3 → Nat) = fun _ => 0 := funext fun a => by fin_cases a <;> rfl

/-- Where each window's block sits at a grid point, relative to the weights window: the query and both result windows
    move together (batch, row group), the key and value windows follow the batch only. -/
theorem block_places : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3) ∧ win1_3.index t (2 : Fin 3) = 0
    ∧ win1_4.index t (2 : Fin 3) = 0 ∧ win1_4.index t (0 : Fin 3) < 4 ∧ win1_4.index t (1 : Fin 3) < 16 :=
  (by decide +kernel : ∀ t : Fin grid1.N, _)

/-- Every (batch, row group) is some point's. -/
theorem place_onto : ∀ (n : Fin 4) (g : Fin 16), ∃ t : Fin cfg1.N, win1_4.index t = ![n.val, g.val, 0] ∧ win1_3.index t = ![n.val, g.val, 0] :=
  (by decide +kernel : ∀ (n : Fin 4) (g : Fin 16), ∃ t : Fin grid1.N, win1_4.index t = ![n.val, g.val, 0] ∧ win1_3.index t = ![n.val, g.val, 0])

/-! ## The weights -/

/-- What point `t` writes back to the weights array is its block of the specification's weights. -/
theorem flushed_weights (c : Dev nD) (t : Fin cfg1.N) :
    (dat1 V c).flushed 4 t = ((cfg1.win 4).blk t).view.read (Elt Ideal) (Cert.Spec.attnArr (V c main_v6) (V c main_v7)) := by
  show (cfg1.win 4).cut (grid1.coords t) ((dat1 V c).after 4 t) = _
  rw [after1_4]
  unfold out1_4
  rw [View.canon_unit_zero origin3]
  simp only [View.ld_unit_zero (S := S1x256x1024) origin3, View.ld_unit_zero (S := S1x4096x1024) origin3]
  obtain ⟨a00, a01, a02, b00, b01, b02, -, -, -, -, -, -, e2, -, -⟩ := block_places t
  funext y
  show k1_pay2 (iblk1 V c 0 t) (iblk1 V c 1 t) y = Cert.Spec.attnArr (V c main_v6) (V c main_v7) (((cfg1.win 4).blk t).view.emb y)
  have y0 : (y 0).val < 1 := (y 0).isLt
  have y1 : (y 1).val < 256 := (y 1).isLt
  have y2 : (y 2).val < 4096 := (y 2).isLt
  refine Cert.KernelIdeal.AttnBody.weight_block (iblk1 V c 0 t) (iblk1 V c 1 t) (V c main_v6) (V c main_v7) y (((cfg1.win 4).blk t).view.emb y) ?_ ?_ ?_
  · intro o
    show V c main_v6 (((cfg1.win 0).blk t).view.emb (ix3 (0 : Fin 1) (⟨(y 1).val, (y 1).isLt⟩ : Fin 256) o)) = _
    refine congrArg (V c main_v6) (funext fun a => Fin.ext ?_)
    match a with
    | ⟨0, _⟩ => show win1_0.index t (0 : Fin 3) * 1 + 1 * 0 = win1_4.index t (0 : Fin 3) * 1 + 1 * (y 0).val; omega
    | ⟨1, _⟩ => show win1_0.index t (1 : Fin 3) * 256 + 1 * (y 1).val = win1_4.index t (1 : Fin 3) * 256 + 1 * (y 1).val; omega
    | ⟨2, _⟩ => show win1_0.index t (2 : Fin 3) * 1024 + 1 * o.val = o.val; omega
  · intro s o
    show V c main_v7 (((cfg1.win 1).blk t).view.emb (ix3 (0 : Fin 1) s o)) = _
    refine congrArg (V c main_v7) (funext fun a => Fin.ext ?_)
    match a with
    | ⟨0, _⟩ => show win1_1.index t (0 : Fin 3) * 1 + 1 * 0 = win1_4.index t (0 : Fin 3) * 1 + 1 * (y 0).val; omega
    | ⟨1, _⟩ => show win1_1.index t (1 : Fin 3) * 4096 + 1 * s.val = s.val; omega
    | ⟨2, _⟩ => show win1_1.index t (2 : Fin 3) * 1024 + 1 * o.val = o.val; omega
  · show (y 2).val = win1_4.index t (2 : Fin 3) * 4096 + 1 * (y 2).val
    omega

/-- An index of the weights array is in point `t`'s block iff each coordinate is in the block's range on its axis. -/
theorem mem_weights_block (t : Fin cfg1.N) (i : S4x4096x4096.Idx) :
    i ∈ ((cfg1.win 4).blk t).view.set ↔ ∀ a : Fin 3, win1_4.index t a * S1x256x4096.size a ≤ (i a).val ∧ (i a).val < win1_4.index t a * S1x256x4096.size a + S1x256x4096.size a := by
  show i ∈ ((View.whole main_v9_1).slice (win1_4.rect t)).set ↔ _
  rw [View.set_slice_whole, Rect.mem_set_unit]
  exact Iff.rfl

/-- Every index of the weights array is in some point's block: batch `i 0`, row group `i 1 / 256`. -/
theorem weights_covered (i : S4x4096x4096.Idx) : ∃ t : Fin cfg1.N, (cfg1.win 4).flush t = true ∧ i ∈ ((cfg1.win 4).blk t).view.set := by
  have i0 : (i 0).val < 4 := (i 0).isLt
  have i1 : (i 1).val < 4096 := (i 1).isLt
  have i2 : (i 2).val < 4096 := (i 2).isLt
  obtain ⟨t, ht, -⟩ := place_onto ⟨(i 0).val, i0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_weights_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 4096 ≤ (i 2).val ∧ (i 2).val < win1_4.index t (2 : Fin 3) * 4096 + 4096; omega

/-- THE WEIGHTS ARRAY after the region: the specification's weights of the query and key arrays it was entered with. -/
theorem final_weights (c : Dev nD) : (dat1 V c).arrAt 4 cfg1.N = Cert.Spec.attnArr (V c main_v6) (V c main_v7) :=
  (dat1 V c).arrAt_eq_of_cover 4 (Cert.Spec.attnArr (V c main_v6) (V c main_v7)) (fun t _ => flushed_weights V c t) weights_covered

/-! ## The mixtures -/

/-- What point `t` writes back to the output array is its block of the specification's mixtures. -/
theorem flushed_mix (c : Dev nD) (t : Fin cfg1.N) :
    (dat1 V c).flushed 3 t = ((cfg1.win 3).blk t).view.read (Elt Ideal) (Cert.Spec.mixArr (V c main_v6) (V c main_v7) (V c main_v8)) := by
  show (cfg1.win 3).cut (grid1.coords t) ((dat1 V c).after 3 t) = _
  rw [after1_3]
  unfold out1_3
  rw [View.canon_unit_zero origin3]
  simp only [View.ld_unit_zero (S := S1x256x1024) origin3, View.ld_unit_zero (S := S1x4096x1024) origin3]
  obtain ⟨a00, a01, a02, b00, b01, b02, c00, c01, c02, d00, d01, d02, -, -, -⟩ := block_places t
  funext y
  show k1_pay3 (iblk1 V c 0 t) (iblk1 V c 1 t) (iblk1 V c 2 t) y
    = Cert.Spec.mixArr (V c main_v6) (V c main_v7) (V c main_v8) (((cfg1.win 3).blk t).view.emb y)
  have y0 : (y 0).val < 1 := (y 0).isLt
  have y1 : (y 1).val < 256 := (y 1).isLt
  have y2 : (y 2).val < 1024 := (y 2).isLt
  refine Cert.KernelIdeal.AttnBody.mix_block (iblk1 V c 0 t) (iblk1 V c 1 t) (iblk1 V c 2 t) (V c main_v6) (V c main_v7) (V c main_v8) y
    (((cfg1.win 3).blk t).view.emb y) ?_ ?_ ?_ ?_
  · intro o
    show V c main_v6 (((cfg1.win 0).blk t).view.emb (ix3 (0 : Fin 1) (⟨(y 1).val, (y 1).isLt⟩ : Fin 256) o)) = _
    refine congrArg (V c main_v6) (funext fun a => Fin.ext ?_)
    match a with
    | ⟨0, _⟩ => show win1_0.index t (0 : Fin 3) * 1 + 1 * 0 = win1_3.index t (0 : Fin 3) * 1 + 1 * (y 0).val; omega
    | ⟨1, _⟩ => show win1_0.index t (1 : Fin 3) * 256 + 1 * (y 1).val = win1_3.index t (1 : Fin 3) * 256 + 1 * (y 1).val; omega
    | ⟨2, _⟩ => show win1_0.index t (2 : Fin 3) * 1024 + 1 * o.val = o.val; omega
  · intro s o
    show V c main_v7 (((cfg1.win 1).blk t).view.emb (ix3 (0 : Fin 1) s o)) = _
    refine congrArg (V c main_v7) (funext fun a => Fin.ext ?_)
    match a with
    | ⟨0, _⟩ => show win1_1.index t (0 : Fin 3) * 1 + 1 * 0 = win1_3.index t (0 : Fin 3) * 1 + 1 * (y 0).val; omega
    | ⟨1, _⟩ => show win1_1.index t (1 : Fin 3) * 4096 + 1 * s.val = s.val; omega
    | ⟨2, _⟩ => show win1_1.index t (2 : Fin 3) * 1024 + 1 * o.val = o.val; omega
  · intro s o
    show V c main_v8 (((cfg1.win 2).blk t).view.emb (ix3 (0 : Fin 1) s o)) = _
    refine congrArg (V c main_v8) (funext fun a => Fin.ext ?_)
    match a with
    | ⟨0, _⟩ => show win1_2.index t (0 : Fin 3) * 1 + 1 * 0 = win1_3.index t (0 : Fin 3) * 1 + 1 * (y 0).val; omega
    | ⟨1, _⟩ => show win1_2.index t (1 : Fin 3) * 4096 + 1 * s.val = s.val; omega
    | ⟨2, _⟩ => show win1_2.index t (2 : Fin 3) * 1024 + 1 * o.val = o.val; omega
  · show (y 2).val = win1_3.index t (2 : Fin 3) * 1024 + 1 * (y 2).val
    omega

/-- An index of the output array is in point `t`'s block iff each coordinate is in the block's range on its axis. -/
theorem mem_mix_block (t : Fin cfg1.N) (i : S4x4096x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v9_0).slice (win1_3.rect t)).set ↔ _
  rw [View.set_slice_whole, Rect.mem_set_unit]
  exact Iff.rfl

/-- Every index of the output array is in some point's block. -/
theorem mix_covered (i : S4x4096x1024.Idx) : ∃ t : Fin cfg1.N, (cfg1.win 3).flush t = true ∧ i ∈ ((cfg1.win 3).blk t).view.set := by
  have i0 : (i 0).val < 4 := (i 0).isLt
  have i1 : (i 1).val < 4096 := (i 1).isLt
  have i2 : (i 2).val < 1024 := (i 2).isLt
  obtain ⟨t, -, ht⟩ := place_onto ⟨(i 0).val, i0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_mix_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- THE OUTPUT ARRAY after the region: the specification's mixtures of the query, key and value arrays it was entered with. -/
theorem final_mix (c : Dev nD) : (dat1 V c).arrAt 3 cfg1.N = Cert.Spec.mixArr (V c main_v6) (V c main_v7) (V c main_v8) :=
  (dat1 V c).arrAt_eq_of_cover 3 (Cert.Spec.mixArr (V c main_v6) (V c main_v7) (V c main_v8)) (fun t _ => flushed_mix V c t) mix_covered

end Cert.KernelIdeal.Reg1

end
-- ==== Proof.Glue.lean ====
/-
  Folding the batch axis into the row axis and back, around the shared affine map.

  An activation `[4, 4096, 1024]` read as `16384` rows of `1024` features has its row `(n, s)` at flat row
  `n · 4096 + s`: both arrangements put the entry `(n, s, d)` at row-major position `(n · 4096 + s) · 1024 + d`. The
  transposed weight at `(d, o)` is the weight at `(o, d)`, and the bias as one row at `(0, o)` is the bias at `o`. So
  the affine map on the flat rows against the transposed weight, read back as `[4, 4096, 1024]`, is the affine map of the
  specification: the same finite sum, term by term, plus the same bias entry.
-/
import proofs.«410990_j27968827031628_3_alg».proof.Proof.Spec
import Idealize.ShloMosaic.Shape
import Idealize.ShloMosaic.Lib.Pipeline.Value
import Idealize.ShloMosaic.Lib.ValueIdx

noncomputable section

open scoped BigOperators

namespace Cert.Glue

open Idealize.ShloMosaic Idealize.ShloMosaic.ValueIdx Cert.Spec

/-- The flat row that holds row `s` of batch `n`. -/
def flatRow (n : Fin 4) (s : Fin 4096) : Fin 16384 :=
  ⟨n.val * 4096 + s.val, by have := n.isLt; have := s.isLt; omega⟩

theorem flatRow_val (n : Fin 4) (s : Fin 4096) : (flatRow n s).val = n.val * 4096 + s.val := rfl

/-- The flattened activation at flat row `n · 4096 + s`, feature `d`, is the activation at `(n, s, d)`. -/
theorem flat_apply (x : Act.Idx → EReal) (hx : Act.ShapeCasts Flat) (n : Fin 4) (s : Fin 4096) (d : Fin 1024) :
    shapeCast Flat x hx (ix2 (flatRow n s) d) = x (ix3 n s d) :=
  shapeCast_apply x hx _ _ (by
    rw [Shape.rowMajor_val_three, Shape.rowMajor_val_two]
    show (n.val * 4096 + s.val) * 1024 + d.val = (n.val * 4096 + s.val) * 1024 + d.val
    rfl)

/-- An array of flat rows read back as `[4, 4096, 1024]`: at `(n, s, o)` it is the flat array at row `n · 4096 + s`, column `o`. -/
theorem back_apply (y : Flat.Idx → EReal) (hback : Flat.ShapeCasts Act) (n : Fin 4) (s : Fin 4096) (o : Fin 1024) :
    shapeCast Act y hback (ix3 n s o) = y (ix2 (flatRow n s) o) :=
  shapeCast_apply y hback _ _ (by
    rw [Shape.rowMajor_val_two, Shape.rowMajor_val_three]
    show (n.val * 4096 + s.val) * 1024 + o.val = (n.val * 4096 + s.val) * 1024 + o.val
    rfl)

/-- The transposed weight at `(d, o)` is the weight at `(o, d)`. -/
theorem wt_apply (w : Wt.Idx → EReal) (hT : Wt.Transposes [1, 0] Wt) (d o : Fin 1024) :
    transpose Wt [1, 0] w hT (ix2 d o) = w (ix2 o d) :=
  transpose_apply [1, 0] w hT (ix2 d o) (ix2 o d) (fun a => by
    match a with
    | ⟨0, _⟩ => rfl
    | ⟨1, _⟩ => rfl)

/-- The bias as one row, at `(0, o)`, is the bias at `o`. -/
theorem bias_apply (b : Bias.Idx → EReal) (hb : Bias.ShapeCasts BiasRow) (o : Fin 1024) :
    shapeCast BiasRow b hb (ix2 (0 : Fin 1) o) = b (ix1 o) :=
  shapeCast_apply b hb _ _ (by
    rw [Shape.rowMajor_val_one, Shape.rowMajor_val_two]
    show o.val = 0 * 1024 + o.val
    omega)

/-- The affine map on the flattened rows against the transposed weight and the one-row bias, read back as
    `[4, 4096, 1024]`, is the affine map of the specification. -/
theorem lin_roundtrip (x : Act.Idx → EReal) (w : Wt.Idx → EReal) (b : Bias.Idx → EReal) (hx : Act.ShapeCasts Flat)
    (hT : Wt.Transposes [1, 0] Wt) (hb : Bias.ShapeCasts BiasRow) (hback : Flat.ShapeCasts Act) :
    shapeCast Act (linFlat (shapeCast Flat x hx) (transpose Wt [1, 0] w hT) (shapeCast BiasRow b hb)) hback = linArr x w b := by
  funext i
  obtain ⟨n, s, o, rfl⟩ : ∃ n s o, i = ix3 n s o := ⟨_, _, _, eq_ix3 i⟩
  rw [back_apply, linFlat_ix2, linArr_ix3, bias_apply]
  unfold lin
  refine congrArg (· + b (ix1 o)) (Finset.sum_congr rfl fun d _ => ?_)
  rw [flat_apply, wt_apply]

/-- info: 'Cert.Glue.lin_roundtrip' depends on axioms: [propext, Classical.choice, Quot.sound] -/
#guard_msgs in #print axioms lin_roundtrip

end Cert.Glue

end
-- ==== Proof.KernelValue.lean ====
/-
  The kernel program's two results as functions of its five arguments, at the ideal values.

  The contents of the TensorCore's buffers are followed through @main: the host flattens the three activations to
  16384 rows, transposes the weight and lays the bias out as one row; the projection region leaves, in each of its three
  result arrays, rows · Wᵀ + bias of the flattened activation; the host folds each back to four batches, which is the
  specification's affine map of the original activation; the attention region then leaves the specification's weights
  and mixtures of those three arrays. Nothing here opens a sum: each step is one of the sibling modules' whole-array
  equations, chained.
-/
import proofs.«410990_j27968827031628_3_alg».proof.Proof.KernelRun
import proofs.«410990_j27968827031628_3_alg».proof.Proof.Spec
import proofs.«410990_j27968827031628_3_alg».proof.Proof.Region0
import proofs.«410990_j27968827031628_3_alg».proof.Proof.Region1
import proofs.«410990_j27968827031628_3_alg».proof.Proof.Glue
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## The host's layout steps before the projection region -/

theorem flat0 (c : Dev nD) : (V1 m ρ c main_v2 : S16384x1024.Idx → EReal)
    = shapeCast S16384x1024 (m ((c.tc : Thread nD τ).loc main_arg0)) shapeCasts_S4x4096x1024_S16384x1024 := by
  show StableHlo.after hostOps0 (W0 m ρ c) (Proc.devRef .tc main_v2) = _
  after_results
  rfl
theorem flat1 (c : Dev nD) : (V1 m ρ c main_v3 : S16384x1024.Idx → EReal)
    = shapeCast S16384x1024 (m ((c.tc : Thread nD τ).loc main_arg1)) shapeCasts_S4x4096x1024_S16384x1024 := by
  show StableHlo.after hostOps0 (W0 m ρ c) (Proc.devRef .tc main_v3) = _
  after_results
  rfl
theorem flat2 (c : Dev nD) : (V1 m ρ c main_v4 : S16384x1024.Idx → EReal)
    = shapeCast S16384x1024 (m ((c.tc : Thread nD τ).loc main_arg2)) shapeCasts_S4x4096x1024_S16384x1024 := by
  show StableHlo.after hostOps0 (W0 m ρ c) (Proc.devRef .tc main_v4) = _
  after_results
  rfl
theorem weightT (c : Dev nD) : (V1 m ρ c main_v0 : S1024x1024.Idx → EReal)
    = transpose S1024x1024 [1, 0] (m ((c.tc : Thread nD τ).loc main_arg3)) transposes_S1024x1024_S1024x1024_1_0 := by
  show StableHlo.after hostOps0 (W0 m ρ c) (Proc.devRef .tc main_v0) = _
  after_results
theorem biasRow (c : Dev nD) : (V1 m ρ c main_v1 : S1x1024.Idx → EReal)
    = shapeCast S1x1024 (m ((c.tc : Thread nD τ).loc main_arg4)) shapeCasts_S1024_S1x1024 := by
  show StableHlo.after hostOps0 (W0 m ρ c) (Proc.devRef .tc main_v1) = _
  after_results
  rfl

/-! ## The host's layout steps between the regions -/

theorem fold0 (c : Dev nD) : (V3 m ρ c main_v6 : S4x4096x1024.Idx → EReal)
    = shapeCast S4x4096x1024 (W2 m ρ c (Proc.devRef .tc main_v5_0)) shapeCasts_S16384x1024_S4x4096x1024 := by
  show StableHlo.after hostOps1 (W2 m ρ c) (Proc.devRef .tc main_v6) = _
  after_results
  rfl
theorem fold1 (c : Dev nD) : (V3 m ρ c main_v7 : S4x4096x1024.Idx → EReal)
    = shapeCast S4x4096x1024 (W2 m ρ c (Proc.devRef .tc main_v5_1)) shapeCasts_S16384x1024_S4x4096x1024 := by
  show StableHlo.after hostOps1 (W2 m ρ c) (Proc.devRef .tc main_v7) = _
  after_results
  rfl
theorem fold2 (c : Dev nD) : (V3 m ρ c main_v8 : S4x4096x1024.Idx → EReal)
    = shapeCast S4x4096x1024 (W2 m ρ c (Proc.devRef .tc main_v5_2)) shapeCasts_S16384x1024_S4x4096x1024 := by
  show StableHlo.after hostOps1 (W2 m ρ c) (Proc.devRef .tc main_v8) = _
  after_results
  rfl

/-! ## The projected activations as the attention region finds them -/

theorem query (c : Dev nD) : (V3 m ρ c main_v6 : S4x4096x1024.Idx → EReal)
    = Cert.Spec.linArr (m ((c.tc : Thread nD τ).loc main_arg0)) (m ((c.tc : Thread nD τ).loc main_arg3)) (m ((c.tc : Thread nD τ).loc main_arg4)) := by
  rw [fold0, show W2 m ρ c (Proc.devRef .tc main_v5_0) = (dat0 (V1 m ρ) c).arrAt 5 cfg0.N from W2_arr m ρ c 5,
    Cert.KernelIdeal.Reg0.final0_5, flat0, weightT, biasRow]
  exact Cert.Glue.lin_roundtrip _ _ _ _ _ _ _
theorem key (c : Dev nD) : (V3 m ρ c main_v7 : S4x4096x1024.Idx → EReal)
    = Cert.Spec.linArr (m ((c.tc : Thread nD τ).loc main_arg1)) (m ((c.tc : Thread nD τ).loc main_arg3)) (m ((c.tc : Thread nD τ).loc main_arg4)) := by
  rw [fold1, show W2 m ρ c (Proc.devRef .tc main_v5_1) = (dat0 (V1 m ρ) c).arrAt 6 cfg0.N from W2_arr m ρ c 6,
    Cert.KernelIdeal.Reg0.final0_6, flat1, weightT, biasRow]
  exact Cert.Glue.lin_roundtrip _ _ _ _ _ _ _
theorem value (c : Dev nD) : (V3 m ρ c main_v8 : S4x4096x1024.Idx → EReal)
    = Cert.Spec.linArr (m ((c.tc : Thread nD τ).loc main_arg2)) (m ((c.tc : Thread nD τ).loc main_arg3)) (m ((c.tc : Thread nD τ).loc main_arg4)) := by
  rw [fold2, show W2 m ρ c (Proc.devRef .tc main_v5_2) = (dat0 (V1 m ρ) c).arrAt 7 cfg0.N from W2_arr m ρ c 7,
    Cert.KernelIdeal.Reg0.final0_7, flat2, weightT, biasRow]
  exact Cert.Glue.lin_roundtrip _ _ _ _ _ _ _

/-! ## The two results -/

theorem weights_result (c : Dev nD) : (W4 m ρ c (Proc.devRef .tc main_v9_1) : S4x4096x4096.Idx → EReal)
    = Cert.Spec.attnOf (m ((c.tc : Thread nD τ).loc main_arg0)) (m ((c.tc : Thread nD τ).loc main_arg1)) (m ((c.tc : Thread nD τ).loc main_arg3)) (m ((c.tc : Thread nD τ).loc main_arg4)) := by
  rw [show W4 m ρ c (Proc.devRef .tc main_v9_1) = (dat1 (V3 m ρ) c).arrAt 4 cfg1.N from W4_arr m ρ c 4,
    Cert.KernelIdeal.Reg1.final_weights, query, key]
  rfl

theorem mix_result (c : Dev nD) : (W4 m ρ c (Proc.devRef .tc main_v9_0) : S4x4096x1024.Idx → EReal)
    = Cert.Spec.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show W4 m ρ c (Proc.devRef .tc main_v9_0) = (dat1 (V3 m ρ) c).arrAt 3 cfg1.N from W4_arr m ρ c 3,
    Cert.KernelIdeal.Reg1.final_mix, query, key, value]
  rfl

/-- The kernel program's run: both results at the specification's functions of the arguments, the arguments unchanged. -/
theorem run : θ_run defs (onTc (τ := τ) (main (F := Ideal))) ⟨m, fun _ => 0, ρ⟩ (fun r => ∀ c : Dev nD,
      r.2.mem ((c.tc : Thread nD τ).loc main_v9_0) = Cert.Spec.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9_1) = Cert.Spec.attnOf (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (mix_result m ρ c), (h c).2.1.trans (weights_result m ρ c), (h c).2.2⟩)
    (Cert.KernelIdeal.Run.run_results m ρ)

end Cert.KernelIdeal.Whole

end
-- ==== Proof.LibRowMax3.lean ====
/-
  A maximum along the last axis of a rank-3 array on the host, read at an index, at the ideal values.

  A one-operand reduce with a maximum body over axis 2 of an `a × b × c` array, started from the word of −∞, is at
  the pair `(n, t)` the fold of the binary maximum of the extended reals over the `c` entries `(n, t, ·)` of that
  fibre, started from `⊥`. Since `⊥` is the least extended real, a further maximum of that fold with `⊥` changes nothing.
-/
import Idealize.ShloMosaic.PureOps.Reduce
import Idealize.ShloMosaic.PureOps.Ideal.Laws
import Idealize.ShloMosaic.Lib.ValueIdx

noncomputable section

namespace Cert.LibRowMax3

open Idealize.ShloMosaic Idealize.ShloMosaic.ValueIdx

/-- The f32 word of −∞ is the bottom of the extended reals. -/
theorem ofBits_neg_inf_f32 : Ideal.ofBits .f32 0xFF800000#32 = (⊥ : EReal) := by
  simp [Ideal.ofBits, Ideal.ieee]

/-- The reduced index `(n, t)` with the coordinate `k` put back on the last axis is `(n, t, k)`. -/
theorem lift_last {a b c : Nat} (h : (⟨3, ![a, b, c]⟩ : Shape).Reduces [2] (⟨2, ![a, b]⟩ : Shape)) (n : Fin a) (t : Fin b)
    (k : Fin ((⟨3, ![a, b, c]⟩ : Shape).size 2)) : h.lift (ix2 n t) k = ix3 n t (⟨k.val, k.isLt⟩ : Fin c) := by
  funext d; apply Fin.ext
  fin_cases d <;> rfl

/-- From −∞ the host's reduce with a maximum body along the last axis, at `(n, t)`, is the fold of `max` from `⊥`
    over the fibre `(n, t, ·)`. -/
theorem hostReduce_max_last {a b c : Nat} (x : FVec Ideal ⟨3, ![a, b, c]⟩ .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (n : Fin a) (t : Fin b) :
    Host.reduce FloatOps.maximumf x (constant (⟨0, ![]⟩ : Shape) .f32 0xFF800000#32) h' hu (ix2 n t)
      = (Finset.univ : Finset (Fin c)).fold max (⊥ : EReal) (fun s => x (ix3 n t s)) := by
  rw [Host.reduce_eq_fold_single FloatOps.maximumf x _ h' h hu]
  have hf : (x ∘ h.lift (ix2 n t)) = fun s : Fin c => x (ix3 n t s) := funext fun s => congrArg x (lift_last h n t s)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin c))) hf

/-- A maximum with `⊥` on the left is the other operand. -/
theorem max_bot_left (y : EReal) : max (⊥ : EReal) y = y := max_eq_right bot_le

/-- info: 'Cert.LibRowMax3.hostReduce_max_last' depends on axioms: [propext, Classical.choice, Quot.sound] -/
#guard_msgs in #print axioms hostReduce_max_last

end Cert.LibRowMax3

end
-- ==== Proof.Reference.lean ====
import proofs.«410990_j27968827031628_3_alg».proof.Proof.Gen.ReferenceIdeal.Run
import proofs.«410990_j27968827031628_3_alg».proof.Proof.Gen.ReferenceIdeal.Read
import proofs.«410990_j27968827031628_3_alg».proof.Proof.Spec
import proofs.«410990_j27968827031628_3_alg».proof.Proof.LibRowMax3
import Idealize.ShloMosaic.PureOps.Reduce
import Idealize.ShloMosaic.PureOps.Ideal.Laws
import Idealize.ShloMosaic.Lib.ValueIdx

/-
  The reference program computes the specification.

  The reference forms each of the three projections as the contraction of an activation row with a weight row plus
  the bias entry; the scores as the contraction of a query row with a key row of the same batch; the largest score of
  a row as a fold of the maximum from −∞ (a further maximum with −∞ changes nothing); the exponentials of the shifted
  scores; their row sum from 0; the quotient of the two; and the mixture as the contraction of a row of weights with a
  column of the values. Each stage is read at an index and identified there with the corresponding function of the
  specification; the two results follow by extensionality.
-/

noncomputable section

open scoped BigOperators

namespace Cert.RefSide

open Idealize.ShloMosaic Idealize.ShloMosaic.ValueIdx Cert.ReferenceIdeal Cert.ReferenceIdeal.Gen Cert.ReferenceIdeal.Read

/-! ## The three projections

At `(n, s, o)` each is the row `(n, s, ·)` of its activation against row `o` of the weight, plus the bias at `o`. -/

/-- The projection of the first activation. -/
theorem ref_lin0 (x : (⟨S4x4096x1024, .f32⟩ : BufTy).Contents (Elt Ideal)) (x3 : (⟨S1024x1024, .f32⟩ : BufTy).Contents (Elt Ideal))
    (x4 : (⟨S1024, .f32⟩ : BufTy).Contents (Elt Ideal)) :
    val_main_v3 (F := Ideal) x x3 x4 = Cert.Spec.linArr x x3 x4 := by
  funext i
  obtain ⟨n, s, o, rfl⟩ : ∃ n s o, i = ix3 n s o := ⟨_, _, _, eq_ix3 i⟩
  rw [val_main_v3_apply, val_main_v0_apply, val_main_v2_apply, val_main_v1_apply, Cert.Spec.linArr_ix3]
  have eb : idx_main_v1 (idx_main_v2 (ix3 n s o)) = ix1 o :=
    funext fun a => Fin.ext (by match a with | ⟨0, _⟩ => rfl)
  have el : ∀ d : Fin 1024, lidx_main_v0 (ix3 n s o) d = ix3 n s d := fun d =>
    funext fun a => Fin.ext (by match a with | ⟨0, _⟩ => rfl | ⟨1, _⟩ => rfl | ⟨2, _⟩ => rfl)
  have er : ∀ d : Fin 1024, ridx_main_v0 (ix3 n s o) d = ix2 o d := fun d =>
    funext fun a => Fin.ext (by match a with | ⟨0, _⟩ => rfl | ⟨1, _⟩ => rfl)
  rw [eb]
  simp only [el, er, Ideal.addf_def]
  rfl

/-- The projection of the second activation. -/
theorem ref_lin1 (x : (⟨S4x4096x1024, .f32⟩ : BufTy).Contents (Elt Ideal)) (x3 : (⟨S1024x1024, .f32⟩ : BufTy).Contents (Elt Ideal))
    (x4 : (⟨S1024, .f32⟩ : BufTy).Contents (Elt Ideal)) :
    val_main_v7 (F := Ideal) x x3 x4 = Cert.Spec.linArr x x3 x4 := by
  funext i
  obtain ⟨n, s, o, rfl⟩ : ∃ n s o, i = ix3 n s o := ⟨_, _, _, eq_ix3 i⟩
  rw [val_main_v7_apply, val_main_v4_apply, val_main_v6_apply, val_main_v5_apply, Cert.Spec.linArr_ix3]
  have eb : idx_main_v5 (idx_main_v6 (ix3 n s o)) = ix1 o :=
    funext fun a => Fin.ext (by match a with | ⟨0, _⟩ => rfl)
  have el : ∀ d : Fin 1024, lidx_main_v4 (ix3 n s o) d = ix3 n s d := fun d =>
    funext fun a => Fin.ext (by match a with | ⟨0, _⟩ => rfl | ⟨1, _⟩ => rfl | ⟨2, _⟩ => rfl)
  have er : ∀ d : Fin 1024, ridx_main_v4 (ix3 n s o) d = ix2 o d := fun d =>
    funext fun a => Fin.ext (by match a with | ⟨0, _⟩ => rfl | ⟨1, _⟩ => rfl)
  rw [eb]
  simp only [el, er, Ideal.addf_def]
  rfl

/-- The projection of the third activation. -/
theorem ref_lin2 (x : (⟨S4x4096x1024, .f32⟩ : BufTy).Contents (Elt Ideal)) (x3 : (⟨S1024x1024, .f32⟩ : BufTy).Contents (Elt Ideal))
    (x4 : (⟨S1024, .f32⟩ : BufTy).Contents (Elt Ideal)) :
    val_main_v11 (F := Ideal) x x3 x4 = Cert.Spec.linArr x x3 x4 := by
  funext i
  obtain ⟨n, s, o, rfl⟩ : ∃ n s o, i = ix3 n s o := ⟨_, _, _, eq_ix3 i⟩
  rw [val_main_v11_apply, val_main_v8_apply, val_main_v10_apply, val_main_v9_apply, Cert.Spec.linArr_ix3]
  have eb : idx_main_v9 (idx_main_v10 (ix3 n s o)) = ix1 o :=
    funext fun a => Fin.ext (by match a with | ⟨0, _⟩ => rfl)
  have el : ∀ d : Fin 1024, lidx_main_v8 (ix3 n s o) d = ix3 n s d := fun d =>
    funext fun a => Fin.ext (by match a with | ⟨0, _⟩ => rfl | ⟨1, _⟩ => rfl | ⟨2, _⟩ => rfl)
  have er : ∀ d : Fin 1024, ridx_main_v8 (ix3 n s o) d = ix2 o d := fun d =>
    funext fun a => Fin.ext (by match a with | ⟨0, _⟩ => rfl | ⟨1, _⟩ => rfl)
  rw [eb]
  simp only [el, er, Ideal.addf_def]
  rfl

/-! ## The softmax of the scores, stage by stage at an index -/

/-- The score of query row `t` against key row `s` in batch `n`: the inner product of the two projected rows. -/
theorem ref_score (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t s : Fin 4096) :
    val_main_v12 (F := Ideal) x0 x1 x3 x4 (ix3 n t s)
      = Cert.Spec.score (Cert.Spec.linArr x0 x3 x4) (Cert.Spec.linArr x1 x3 x4) n t s := by
  rw [val_main_v12_apply, ref_lin0, ref_lin1]
  unfold Cert.Spec.score
  refine Finset.sum_congr rfl fun o _ => ?_
  have el : lidx_main_v12 (ix3 n t s) o = ix3 n t o :=
    funext fun a => Fin.ext (by match a with | ⟨0, _⟩ => rfl | ⟨1, _⟩ => rfl | ⟨2, _⟩ => rfl)
  have er : ridx_main_v12 (ix3 n t s) o = ix3 n s o :=
    funext fun a => Fin.ext (by match a with | ⟨0, _⟩ => rfl | ⟨1, _⟩ => rfl | ⟨2, _⟩ => rfl)
  rw [el, er]

/-- The largest score of query row `t`: the fold of the maximum from −∞ over the key rows. -/
theorem ref_top (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t : Fin 4096) :
    val_main_v13 (F := Ideal) x0 x1 x3 x4 (ix2 n t)
      = Cert.Spec.top (Cert.Spec.linArr x0 x3 x4) (Cert.Spec.linArr x1 x3 x4) n t := by
  refine (Cert.LibRowMax3.hostReduce_max_last (a := 4) (b := 4096) (c := 4096) (val_main_v12 (F := Ideal) x0 x1 x3 x4)
    reducesTo_S4x4096x4096_S4x4096_d2 (by decide) h_S_ n t).trans ?_
  unfold Cert.Spec.top
  exact congrArg (fun f => Finset.fold max (⊥ : EReal) f (Finset.univ : Finset (Fin 4096)))
    (funext fun s => ref_score x0 x1 x3 x4 n t s)

/-- A further maximum with −∞ leaves the largest score as it is. -/
theorem ref_top_guard (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t : Fin 4096) :
    val_main_v15 (F := Ideal) x0 x1 x3 x4 (ix2 n t)
      = Cert.Spec.top (Cert.Spec.linArr x0 x3 x4) (Cert.Spec.linArr x1 x3 x4) n t := by
  rw [val_main_v15_apply, val_main_v14_apply, val_main_cst_0_apply, ref_top]
  show max (Ideal.ofBits .f32 0xFF800000#32) _ = _
  rw [Cert.LibRowMax3.ofBits_neg_inf_f32]
  exact Cert.LibRowMax3.max_bot_left _

/-- The largest score laid back along the key axis. -/
theorem ref_top_along (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t s : Fin 4096) :
    val_main_v17 (F := Ideal) x0 x1 x3 x4 (ix3 n t s)
      = Cert.Spec.top (Cert.Spec.linArr x0 x3 x4) (Cert.Spec.linArr x1 x3 x4) n t := by
  rw [val_main_v17_apply, val_main_v16_apply]
  have e : idx_main_v16 (idx_main_v17 (ix3 n t s)) = ix2 n t :=
    funext fun a => Fin.ext (by match a with | ⟨0, _⟩ => rfl | ⟨1, _⟩ => rfl)
  rw [e, ref_top_guard]

/-- The exponential of a score shifted by its row's largest. -/
theorem ref_ex (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t s : Fin 4096) :
    val_main_v19 (F := Ideal) x0 x1 x3 x4 (ix3 n t s)
      = Cert.Spec.ex (Cert.Spec.linArr x0 x3 x4) (Cert.Spec.linArr x1 x3 x4) n t s := by
  rw [val_main_v19_apply, val_main_v18_apply, ref_score, ref_top_along]
  rfl

/-- The sum of a row's exponentials: the sum from 0 over the key rows. -/
theorem ref_mass (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t : Fin 4096) :
    val_main_v20 (F := Ideal) x0 x1 x3 x4 (ix2 n t)
      = Cert.Spec.mass (Cert.Spec.linArr x0 x3 x4) (Cert.Spec.linArr x1 x3 x4) n t := by
  rw [val_main_v20_apply, val_main_cst_1_apply]
  show Ideal.ofBits .f32 0x00000000#32 + _ = _
  rw [Ideal.ofBits_zero_f32, zero_add]
  unfold Cert.Spec.mass
  refine Finset.sum_congr rfl fun s _ => ?_
  have e : idx_main_v20 (ix2 n t) s = ix3 n t s :=
    funext fun a => Fin.ext (by match a with | ⟨0, _⟩ => rfl | ⟨1, _⟩ => rfl | ⟨2, _⟩ => rfl)
  rw [e, ref_ex]

/-- The row sum laid back along the key axis. -/
theorem ref_mass_along (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t s : Fin 4096) :
    val_main_v22 (F := Ideal) x0 x1 x3 x4 (ix3 n t s)
      = Cert.Spec.mass (Cert.Spec.linArr x0 x3 x4) (Cert.Spec.linArr x1 x3 x4) n t := by
  rw [val_main_v22_apply, val_main_v21_apply]
  have e : idx_main_v21 (idx_main_v22 (ix3 n t s)) = ix2 n t :=
    funext fun a => Fin.ext (by match a with | ⟨0, _⟩ => rfl | ⟨1, _⟩ => rfl)
  rw [e, ref_mass]

/-- The attention weight of key row `s` for query row `t`: the exponential over the row sum. -/
theorem ref_weight (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t s : Fin 4096) :
    val_main_v23 (F := Ideal) x0 x1 x3 x4 (ix3 n t s)
      = Cert.Spec.weight (Cert.Spec.linArr x0 x3 x4) (Cert.Spec.linArr x1 x3 x4) n t s := by
  rw [val_main_v23_apply, ref_ex, ref_mass_along]
  rfl

/-- The mixture of the value rows at query row `t`, feature `o`. -/
theorem ref_mix (x0 x1 x2 : (⟨S4x4096x1024, .f32⟩ : BufTy).Contents (Elt Ideal)) (x3 : (⟨S1024x1024, .f32⟩ : BufTy).Contents (Elt Ideal)) (x4 : (⟨S1024, .f32⟩ : BufTy).Contents (Elt Ideal))
    (n : Fin 4) (t : Fin 4096) (o : Fin 1024) :
    val_main_v24 (F := Ideal) x0 x1 x2 x3 x4 (ix3 n t o)
      = Cert.Spec.mix (Cert.Spec.linArr x0 x3 x4) (Cert.Spec.linArr x1 x3 x4) (Cert.Spec.linArr x2 x3 x4) n t o := by
  rw [val_main_v24_apply, ref_lin2]
  unfold Cert.Spec.mix
  refine Finset.sum_congr rfl fun s _ => ?_
  have el : lidx_main_v24 (ix3 n t o) s = ix3 n t s :=
    funext fun a => Fin.ext (by match a with | ⟨0, _⟩ => rfl | ⟨1, _⟩ => rfl | ⟨2, _⟩ => rfl)
  have er : ridx_main_v24 (ix3 n t o) s = ix3 n s o :=
    funext fun a => Fin.ext (by match a with | ⟨0, _⟩ => rfl | ⟨1, _⟩ => rfl | ⟨2, _⟩ => rfl)
  rw [el, er, ref_weight]

/-! ## The two results -/

/-- The reference's weights are the specification's. -/
theorem ref_attn (x0 x1 : (⟨S4x4096x1024, .f32⟩ : BufTy).Contents (Elt Ideal)) (x3 : (⟨S1024x1024, .f32⟩ : BufTy).Contents (Elt Ideal)) (x4 : (⟨S1024, .f32⟩ : BufTy).Contents (Elt Ideal)) :
    val_main_v23 (F := Ideal) x0 x1 x3 x4 = Cert.Spec.attnOf x0 x1 x3 x4 := by
  funext i
  obtain ⟨n, t, s, rfl⟩ : ∃ n t s, i = ix3 n t s := ⟨_, _, _, eq_ix3 i⟩
  rw [ref_weight]
  rfl

/-- The reference's mixtures are the specification's. -/
theorem ref_out (x0 x1 x2 : (⟨S4x4096x1024, .f32⟩ : BufTy).Contents (Elt Ideal)) (x3 : (⟨S1024x1024, .f32⟩ : BufTy).Contents (Elt Ideal)) (x4 : (⟨S1024, .f32⟩ : BufTy).Contents (Elt Ideal)) :
    val_main_v24 (F := Ideal) x0 x1 x2 x3 x4 = Cert.Spec.outOf x0 x1 x2 x3 x4 := by
  funext i
  obtain ⟨n, t, o, rfl⟩ : ∃ n t o, i = ix3 n t o := ⟨_, _, _, eq_ix3 i⟩
  rw [ref_mix]
  rfl

/-- info: 'Cert.RefSide.ref_attn' depends on axioms: [propext, Classical.choice, Quot.sound] -/
#guard_msgs in #print axioms ref_attn

/-- info: 'Cert.RefSide.ref_out' depends on axioms: [propext, Classical.choice, Quot.sound] -/
#guard_msgs in #print axioms ref_out

end Cert.RefSide

end
-- ==== Proof.lean ====
/-
  Two programs for shared-projection attention agree over the extended reals.

  Both take three activations [4, 4096, 1024], a weight [1024, 1024] and a bias [1024]; both send each activation
  through the one affine map row · Wᵀ + b, score every query row against every key row of its batch by an inner
  product, turn each row of scores into softmax weights (shift by the row's maximum, exponentiate, divide by the row's
  sum), and mix the value rows with those weights; both return the mixtures [4, 4096, 1024] and the weights
  [4, 4096, 4096]. The kernel program does it in two tiled regions — the three projections of a block of 512 flattened
  rows at a time, then the attention of a block of 256 query rows against a whole batch of keys and values — with the
  batch axis folded into the rows in between; the reference does it with whole-array contractions. Read at an index,
  every quantity is the same finite sum, maximum, exponential or quotient of the same terms in the same arrangement
  (Proof/Spec.lean), so the two agree at every input, the infinities included, and the finiteness of the inputs is
  never used. A change of float format is the identity over the extended reals, and the idealized kernel is the
  kernel's own text, so nothing is owed for the idealization.

  The kernel side: Proof/KernelRun.lean runs @main with both result arrays named; Proof/Region0.lean and
  Proof/Region1.lean (over Proof/AttnBody.lean) say what each region leaves in its result arrays as a function of the
  arrays it finds; Proof/Glue.lean folds the batch axis back; Proof/KernelValue.lean chains them. The reference side:
  Proof/Reference.lean reads the reference's stages at an index.
-/
import proofs.«410990_j27968827031628_3_alg».proof.Defs
import proofs.«410990_j27968827031628_3_alg».proof.Proof.Gen.Kernel
import proofs.«410990_j27968827031628_3_alg».proof.Proof.Gen.Kernel.Frame
import proofs.«410990_j27968827031628_3_alg».proof.Proof.Gen.KernelIdeal
import proofs.«410990_j27968827031628_3_alg».proof.Proof.Gen.KernelIdeal.Frame
import proofs.«410990_j27968827031628_3_alg».proof.Proof.Gen.ReferenceIdeal
import proofs.«410990_j27968827031628_3_alg».proof.Proof.Gen.ReferenceIdeal.Run
import proofs.«410990_j27968827031628_3_alg».proof.Proof.Gen.ReferenceIdeal.Read
import proofs.«410990_j27968827031628_3_alg».proof.Proof.Gen.Pre_finite_inputs
import proofs.«410990_j27968827031628_3_alg».proof.Proof.KernelValue
import proofs.«410990_j27968827031628_3_alg».proof.Proof.Reference
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the same text read over the extended reals. -/
theorem frame_kernelIdeal : Cert.frame_KernelIdeal := fun m ρ _ => Cert.KernelIdeal.Gen.frame m ρ

/-- The reference's run, its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading. -/
theorem preserves : Cert.preserves_Kernel_KernelIdeal := trivial

/-- From memories that agree on the five arguments both programs end with the mixtures and the weights of the
    specification, as functions of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v24_eq m' c)).trans ((Cert.RefSide.ref_out _ _ _ _ _).trans ?_)
    rw [(hagree c).1, (hagree c).2.1, (hagree c).2.2.1, (hagree c).2.2.2.1, (hagree c).2.2.2.2]
  · refine ((h c).2.1.trans (Cert.ReferenceIdeal.Read.val_main_v23_eq _ _ _ _)).trans ((Cert.RefSide.ref_attn _ _ _ _).trans ?_)
    rw [(hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
